-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S256x278 : Shape := ⟨2, ![256, 278]⟩
abbrev S790x512 : Shape := ⟨2, ![790, 512]⟩
abbrev S512 : Shape := ⟨1, ![512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S256x278 : S_.BroadcastsInDim S256x278 (![] : Fin 0 → Fin S256x278.rank)
  reducesTo_S256x278_S_d0_1 : S256x278.ReducesTo [0, 1] S_
  bcast_S_S790x512 : S_.BroadcastsInDim S790x512 (![] : Fin 0 → Fin S790x512.rank)
  reducesTo_S790x512_S_d0_1 : S790x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x64 .f32) (main_arg5 : FVec F S64 .f32) (main_arg6 : FVec F S64x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S512x512 .f32) (main_arg1 : FVec F S256x278 .f32) (main_arg2 : FVec F S790x512 .f32) (main_arg3 : FVec F S512 .f32) (main_arg4 : FVec F S512x64 .f32) (main_arg5 : FVec F S64 .f32) (main_arg6 : FVec F S64x1 .f32) (main_arg7 : FVec F S1 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S256x278 .f32 := Host.absf main_arg1
  let main_cst_0 : FVec F S_ .f32 := constant S_ .f32 0x7F800000#32
  let main_v5 : FVec F S256x278 .f32 := broadcastInDim S256x278 ![] bcast_S_S256x278 main_cst_0
  let main_v6 : IVec S256x278 1 := cmpf .olt main_v4 main_v5
  let main_c_1 : IVec S_ 1 := constantI S_ 1 1#1
  let main_v7 : IVec S_ 1 := (fun x v => Host.reduce IntOp.andi x v reducesTo_S256x278_S_d0_1 h_S_) main_v6 main_c_1
  let main_v8 : IVec S_ 1 := andi main_v3 main_v7
  let main_v9 : FVec F S790x512 .f32 := Host.absf main_arg2
  let main_cst_2 : FVec F S_ .f32 := constant S_ .f32 0x7F800000#32
  let main_v10 : FVec F S790x512 .f32 := broadcastInDim S790x512 ![] bcast_S_S790x512 main_cst_2
  let main_v11 : IVec S790x512 1 := cmpf .olt main_v9 main_v10
  let main_c_3 : IVec S_ 1 := constantI S_ 1 1#1
  let main_v12 : IVec S_ 1 := (fun x v => Host.reduce IntOp.andi x v reducesTo_S790x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S512x512 : Shape := ⟨2, ![512, 512]⟩
abbrev S256x278 : Shape := ⟨2, ![256, 278]⟩
abbrev S790x512 : Shape := ⟨2, ![790, 512]⟩
abbrev S512 : Shape := ⟨1, ![512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S278x512 : Shape := ⟨2, ![278, 512]⟩
abbrev S1x512 : Shape := ⟨2, ![1, 512]⟩
abbrev S1x64 : Shape := ⟨2, ![1, 64]⟩
abbrev S1x1 : Shape := ⟨2, ![1, 1]⟩
abbrev S512x256 : Shape := ⟨2, ![512, 256]⟩
abbrev S512x256x64 : Shape := ⟨3, ![512, 256, 64]⟩
abbrev S32x512 : Shape := ⟨2, ![32, 512]⟩
abbrev S128x278 : Shape := ⟨2, ![128, 278]⟩
abbrev S32x128 : Shape := ⟨2, ![32, 128]⟩
abbrev S32x128x64 : Shape := ⟨3, ![32, 128, 64]⟩
abbrev S128x512 : Shape := ⟨2, ![128, 512]⟩
abbrev S32x1x512 : Shape := ⟨3, ![32, 1, 512]⟩
abbrev S1x128x512 : Shape := ⟨3, ![1, 128, 512]⟩
abbrev S32x128x512 : Shape := ⟨3, ![32, 128, 512]⟩
abbrev S1x1x512 : Shape := ⟨3, ![1, 1, 512]⟩
abbrev S4096x512 : Shape := ⟨2, ![4096, 512]⟩
abbrev S4096x64 : Shape := ⟨2, ![4096, 64]⟩
abbrev S4096x1 : Shape := ⟨2, ![4096, 1]⟩
abbrev S32x128x1 : Shape := ⟨3, ![32, 128, 1]⟩
abbrev S131072 : Shape := ⟨1, ![131072]⟩
abbrev S131072x64 : Shape := ⟨2, ![131072, 64]⟩

abbrev nBuf : Space → Nat
  | .hbm => 17
  | .vmem => 15
  | .smem => 0
  | _ => 0

abbrev bufTy : (tb : Table) → Fin (tcTables nBuf tb) → BufTy
  | .hbm, ⟨0, _⟩ => ⟨S512x512, .f32⟩
  | .hbm, ⟨1, _⟩ => ⟨S256x278, .f32⟩
  | .hbm, ⟨2, _⟩ => ⟨S790x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S512x512, .f32⟩
  | .hbm, ⟨9, _⟩ => ⟨S278x512, .f32⟩
  | .hbm, ⟨10, _⟩ => ⟨S1x512, .f32⟩
  | .hbm, ⟨11, _⟩ => ⟨S1x64, .f32⟩
  | .hbm, ⟨12, _⟩ => ⟨S1x1, .f32⟩
  | .hbm, ⟨13, _⟩ => ⟨S512x256, .f32⟩
  | .hbm, ⟨14, _⟩ => ⟨S512x256x64, .f32⟩
  | .hbm, ⟨15, _⟩ => ⟨S131072, .f32⟩
  | .hbm, ⟨16, _⟩ => ⟨S131072x64, .f32⟩
  | .local _ .vmem, ⟨0, _⟩ => ⟨S32x512, .f32⟩
  | .local _ .vmem, ⟨1, _⟩ => ⟨S32x512, .f32⟩
  | .local _ .vmem, ⟨2, _⟩ => ⟨S128x278, .f32⟩
  | .local _ .vmem, ⟨3, _⟩ => ⟨S128x278, .f32⟩
  | .local _ .vmem, ⟨4, _⟩ => ⟨S512x512, .f32⟩
  | .local _ .vmem, ⟨5, _⟩ => ⟨S278x512, .f32⟩
  | .local _ .vmem, ⟨6, _⟩ => ⟨S1x512, .f32⟩
  | .local _ .vmem, ⟨7, _⟩ => ⟨S512x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S32x128, .f32⟩
  | .local _ .vmem, ⟨12, _⟩ => ⟨S32x128, .f32⟩
  | .local _ .vmem, ⟨13, _⟩ => ⟨S32x128x64, .f32⟩
  | .local _ .vmem, ⟨14, _⟩ => ⟨S32x128x64, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x278 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S278x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  slices_S790x512_S512x512_0_0 : S790x512.Slices ![0, 0] S512x512
  slices_S790x512_S278x512_512_0 : S790x512.Slices ![512, 0] S278x512
  shapeCasts_S512_S1x512 : S512.ShapeCasts S1x512
  shapeCasts_S64_S1x64 : S64.ShapeCasts S1x64
  shapeCasts_S1_S1x1 : S1.ShapeCasts S1x1
  inb_S32x512_S32x512_0_0 : ∀ a, (![0, 0] : Fin 2 → Nat) a + S32x512.size a ≤ S32x512.size a
  h_S32x512 : 0 < S32x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S128x278_S128x278_0_0 : ∀ a, (![0, 0] : Fin 2 → Nat) a + S128x278.size a ≤ S128x278.size a
  h_S128x278 : 0 < S128x278.numel
  inb_S278x512_S278x512_0_0 : ∀ a, (![0, 0] : Fin 2 → Nat) a + S278x512.size a ≤ S278x512.size a
  h_S278x512 : 0 < S278x512.numel
  shapeCasts_S278x512_S278x512 : S278x512.ShapeCasts S278x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S32x128x512 : S1x1x512.Broadcasts S32x128x512
  shapeCasts_S32x128x512_S4096x512 : S32x128x512.ShapeCasts S4096x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S32x128x64 : S4096x64.ShapeCasts S32x128x64
  inb_S32x128x64_S32x128x64_0_0_0 : ∀ a, (![0, 0, 0] : Fin 3 → Nat) a + S32x128x64.size a ≤ S32x128x64.size a
  h_S32x128x64 : 0 < S32x128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128x1 : S4096x1.ShapeCasts S32x128x1
  shapeCasts_S32x128x1_S32x128 : S32x128x1.ShapeCasts S32x128
  inb_S32x128_S32x128_0_0 : ∀ a, (![0, 0] : Fin 2 → Nat) a + S32x128.size a ≤ S32x128.size a
  h_S32x128 : 0 < S32x128.numel
  shapeCasts_S512x256_S131072 : S512x256.ShapeCasts S131072
  shapeCasts_S512x256x64_S131072x64 : S512x256x64.ShapeCasts S131072x64
  dot_S32x512_S512x512_S32x512_1_0_0_1_n_n_wf : DotDims.WF S32x512 S512x512 S32x512 [1] [0] [0] [1] [] []
  dot_S128x278_S278x512_S128x512_1_0_0_1_n_n_wf : DotDims.WF S128x278 S278x512 S128x512 [1] [0] [0] [1] [] []
  dot_S4096x512_S512x64_S4096x64_1_0_0_1_n_n_wf : DotDims.WF S4096x512 S512x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S512x512.size a
  hwx0_0 : ∀ i : grid0.Coords, EltTy.bits .f32 = 32 ∨ (Rect.block (s := S512x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x278.size a ≤ S256x278.size a
  hwx0_1 : ∀ i : grid0.Coords, EltTy.bits .f32 = 32 ∨ (Rect.block (s := S256x278) S128x278.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S278x512.size a ≤ S278x512.size a
  hwx0_3 : ∀ i : grid0.Coords, EltTy.bits .f32 = 32 ∨ (Rect.block (s := S278x512) S278x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S512x256.size a
  hwx0_9 : ∀ i : grid0.Coords, EltTy.bits .f32 = 32 ∨ (Rect.block (s := S512x256) S32x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128x64.size a ≤ S512x256x64.size a
  hwx0_10 : ∀ i : grid0.Coords, EltTy.bits .f32 = 32 ∨ (Rect.block (s := S512x256x64) S32x128x64.size (cc0_transform_10 i) (hinb0_10 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S128x278_S278x512_S128x512_1_0_0_1_n_n : DotDims S128x278 S278x512 S128x512 where
  lhsContracting := [1]
  rhsContracting := [0]
  lhsNonContracting := [0]
  rhsNonContracting := [1]
  lhsBatch := []
  rhsBatch := []
  wf := dot_S128x278_S278x512_S128x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x278.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S278x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S32x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S32x128x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x512 : Shape := ⟨2, ![512, 512]⟩
abbrev S256x278 : Shape := ⟨2, ![256, 278]⟩
abbrev S790x512 : Shape := ⟨2, ![790, 512]⟩
abbrev S512 : Shape := ⟨1, ![512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S278x512 : Shape := ⟨2, ![278, 512]⟩
abbrev S256x512 : Shape := ⟨2, ![256, 512]⟩
abbrev S512x1x512 : Shape := ⟨3, ![512, 1, 512]⟩
abbrev S1x256x512 : Shape := ⟨3, ![1, 256, 512]⟩
abbrev S512x256x512 : Shape := ⟨3, ![512, 256, 512]⟩
abbrev S1x1x512 : Shape := ⟨3, ![1, 1, 512]⟩
abbrev S_ : Shape := ⟨0, ![]⟩
abbrev S512x256x64 : Shape := ⟨3, ![512, 256, 64]⟩
abbrev S1x1x64 : Shape := ⟨3, ![1, 1, 64]⟩
abbrev S131072x64 : Shape := ⟨2, ![131072, 64]⟩
abbrev S131072x1 : Shape := ⟨2, ![131072, 1]⟩
abbrev S1x1 : Shape := ⟨2, ![1, 1]⟩
abbrev S131072 : Shape := ⟨1, ![131072]⟩

abbrev nBuf : Space → Nat
  | .hbm => 44
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S256x278, .f32⟩
  | .hbm, ⟨2, _⟩ => ⟨S790x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S512x512, .f32⟩
  | .hbm, ⟨9, _⟩ => ⟨S512x512, .f32⟩
  | .hbm, ⟨10, _⟩ => ⟨S278x512, .f32⟩
  | .hbm, ⟨11, _⟩ => ⟨S256x512, .f32⟩
  | .hbm, ⟨12, _⟩ => ⟨S512x1x512, .f32⟩
  | .hbm, ⟨13, _⟩ => ⟨S1x256x512, .f32⟩
  | .hbm, ⟨14, _⟩ => ⟨S512x256x512, .f32⟩
  | .hbm, ⟨15, _⟩ => ⟨S512x256x512, .f32⟩
  | .hbm, ⟨16, _⟩ => ⟨S512x256x512, .f32⟩
  | .hbm, ⟨17, _⟩ => ⟨S1x1x512, .f32⟩
  | .hbm, ⟨18, _⟩ => ⟨S512x256x512, .f32⟩
  | .hbm, ⟨19, _⟩ => ⟨S512x256x512, .f32⟩
  | .hbm, ⟨20, _⟩ => ⟨S_, .f32⟩
  | .hbm, ⟨21, _⟩ => ⟨S512x256x512, .f32⟩
  | .hbm, ⟨22, _⟩ => ⟨S512x256x512, .f32⟩
  | .hbm, ⟨23, _⟩ => ⟨S512x256x64, .f32⟩
  | .hbm, ⟨24, _⟩ => ⟨S1x1x64, .f32⟩
  | .hbm, ⟨25, _⟩ => ⟨S512x256x64, .f32⟩
  | .hbm, ⟨26, _⟩ => ⟨S512x256x64, .f32⟩
  | .hbm, ⟨27, _⟩ => ⟨S_, .f32⟩
  | .hbm, ⟨28, _⟩ => ⟨S512x256x64, .f32⟩
  | .hbm, ⟨29, _⟩ => ⟨S512x256x64, .f32⟩
  | .hbm, ⟨30, _⟩ => ⟨S131072x64, .f32⟩
  | .hbm, ⟨31, _⟩ => ⟨S131072x1, .f32⟩
  | .hbm, ⟨32, _⟩ => ⟨S1x1, .f32⟩
  | .hbm, ⟨33, _⟩ => ⟨S131072x1, .f32⟩
  | .hbm, ⟨34, _⟩ => ⟨S131072x1, .f32⟩
  | .hbm, ⟨35, _⟩ => ⟨S131072, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S_, .f32⟩
  | .hbm, ⟨42, _⟩ => ⟨S131072, .f32⟩
  | .hbm, ⟨43, _⟩ => ⟨S131072, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  slices_S790x512_S512x512_0_0 : S790x512.Slices ![0, 0] S512x512
  slices_S790x512_S278x512_512_0 : S790x512.Slices ![512, 0] S278x512
  bcast_S512x512_S512x1x512_0_2 : S512x512.BroadcastsInDim S512x1x512 (![0, 2] : Fin 2 → Fin S512x1x512.rank)
  bcast_S256x512_S1x256x512_1_2 : S256x512.BroadcastsInDim S1x256x512 (![1, 2] : Fin 2 → Fin S1x256x512.rank)
  bcast_S512x1x512_S512x256x512_0_1_2 : S512x1x512.BroadcastsInDim S512x256x512 (![0, 1, 2] : Fin 3 → Fin S512x256x512.rank)
  bcast_S1x256x512_S512x256x512_0_1_2 : S1x256x512.BroadcastsInDim S512x256x512 (![0, 1, 2] : Fin 3 → Fin S512x256x512.rank)
  bcast_S512_S1x1x512_2 : S512.BroadcastsInDim S1x1x512 (![2] : Fin 1 → Fin S1x1x512.rank)
  bcast_S1x1x512_S512x256x512_0_1_2 : S1x1x512.BroadcastsInDim S512x256x512 (![0, 1, 2] : Fin 3 → Fin S512x256x512.rank)
  bcast_S_S512x256x512 : S_.BroadcastsInDim S512x256x512 (![] : Fin 0 → Fin S512x256x512.rank)
  bcast_S64_S1x1x64_2 : S64.BroadcastsInDim S1x1x64 (![2] : Fin 1 → Fin S1x1x64.rank)
  bcast_S1x1x64_S512x256x64_0_1_2 : S1x1x64.BroadcastsInDim S512x256x64 (![0, 1, 2] : Fin 3 → Fin S512x256x64.rank)
  bcast_S_S512x256x64 : S_.BroadcastsInDim S512x256x64 (![] : Fin 0 → Fin S512x256x64.rank)
  shapeCasts_S512x256x64_S131072x64 : S512x256x64.ShapeCasts S131072x64
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S_S131072 : S_.BroadcastsInDim S131072 (![] : Fin 0 → Fin S131072.rank)
  dot_S512x512_S512x512_S512x512_1_0_0_1_n_n_wf : DotDims.WF S512x512 S512x512 S512x512 [1] [0] [0] [1] [] []
  dot_S256x278_S278x512_S256x512_1_0_0_1_n_n_wf : DotDims.WF S256x278 S278x512 S256x512 [1] [0] [0] [1] [] []
  dot_S512x256x512_S512x64_S512x256x64_2_0_01_1_n_n_wf : DotDims.WF S512x256x512 S512x64 S512x256x64 [2] [0] [0, 1] [1] [] []
  dot_S131072x64_S64x1_S131072x1_1_0_0_1_n_n_wf : DotDims.WF S131072x64 S64x1 S131072x1 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x278_S278x512_S256x512_1_0_0_1_n_n : DotDims S256x278 S278x512 S256x512 where
  lhsContracting := [1]
  rhsContracting := [0]
  lhsNonContracting := [0]
  rhsNonContracting := [1]
  lhsBatch := []
  rhsBatch := []
  wf := dot_S256x278_S278x512_S256x512_1_0_0_1_n_n_wf
def dot_S512x256x512_S512x64_S512x256x64_2_0_01_1_n_n : DotDims S512x256x512 S512x64 S512x256x64 where
  lhsContracting := [2]
  rhsContracting := [0]
  lhsNonContracting := [0, 1]
  rhsNonContracting := [1]
  lhsBatch := []
  rhsBatch := []
  wf := dot_S512x256x512_S512x64_S512x256x64_2_0_01_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.Spec.lean ====
/-
  The pairwise cell × drug scorer, written as plain sums over the extended reals.

  For one cell row `a` (512 features) and one drug row `d` (278 features) the first layer's weight matrix acts
  as two blocks, `wc` on the cell features and `wd` on the drug features, so that the concatenated input never has to be
  formed:  hidden1 h = max (Σₖ a k · wc k h + Σₖ d k · wd k h + b1 h) 0.
  The second layer is  hidden2 j = max (Σₕ hidden1 h · w2 h j + b2 j) 0,  the logit is  Σⱼ hidden2 j · w3 j + b3,  and the
  score is its logistic  1 / (1 + e^(−logit)).
  Everything is a function of the two rows, so that a block of rows and the whole array of rows are the same functions
  at different rows; `featsGrid` and `scoreGrid` read them at every (cell, drug) pair of the argument arrays.
-/
import Idealize.ShloMosaic.PureOps.Ideal
import Idealize.ShloMosaic.Lib.ValueIdx

noncomputable section

namespace Cert.Spec

open Idealize.ShloMosaic Idealize.ShloMosaic.ValueIdx

/-- The first hidden layer at feature `h`: the cell row against the cell block of the weights, plus the drug row against
    the drug block, plus the bias, clipped below at zero. -/
def hidden1 (a : Fin 512 → EReal) (d : Fin 278 → EReal) (wc : Fin 512 → Fin 512 → EReal) (wd : Fin 278 → Fin 512 → EReal)
    (b1 : Fin 512 → EReal) (h : Fin 512) : EReal :=
  max (((∑ k : Fin 512, a k * wc k h) + (∑ k : Fin 278, d k * wd k h)) + b1 h) 0

/-- The second hidden layer at feature `j`. -/
def hidden2 (a : Fin 512 → EReal) (d : Fin 278 → EReal) (wc : Fin 512 → Fin 512 → EReal) (wd : Fin 278 → Fin 512 → EReal)
    (b1 : Fin 512 → EReal) (w2 : Fin 512 → Fin 64 → EReal) (b2 : Fin 64 → EReal) (j : Fin 64) : EReal :=
  max ((∑ h : Fin 512, hidden1 a d wc wd b1 h * w2 h j) + b2 j) 0

/-- The pair's logit from its second hidden layer `f`. -/
def logit (f : Fin 64 → EReal) (w3 : Fin 64 → EReal) (b3 : EReal) : EReal :=
  (∑ j : Fin 64, f j * w3 j) + b3

/-- The pair's score: the logistic of its logit. -/
def score (f : Fin 64 → EReal) (w3 : Fin 64 → EReal) (b3 : EReal) : EReal :=
  Ideal.logistic (logit f w3 b3)

/-- Row `k` of the cell block of the first layer's weights is row `k` of the whole matrix. -/
abbrev cellRowOfW1 (k : Fin 512) : Fin 790 := ⟨k.val, by have := k.isLt; omega⟩
/-- Row `k` of its drug block is row `512 + k`. -/
abbrev drugRowOfW1 (k : Fin 278) : Fin 790 := ⟨512 + k.val, by have := k.isLt; omega⟩

/-- The second hidden layer of every (cell, drug) pair, from the argument arrays. -/
def featsGrid (cell : FVec Ideal ⟨2, ![512, 512]⟩ .f32) (drug : FVec Ideal ⟨2, ![256, 278]⟩ .f32)
    (W1 : FVec Ideal ⟨2, ![790, 512]⟩ .f32) (b1 : FVec Ideal ⟨1, ![512]⟩ .f32) (W2 : FVec Ideal ⟨2, ![512, 64]⟩ .f32)
    (b2 : FVec Ideal ⟨1, ![64]⟩ .f32) : FVec Ideal ⟨3, ![512, 256, 64]⟩ .f32 := fun i =>
  hidden2 (fun k => cell (ix2 (i 0) k)) (fun k => drug (ix2 (i 1) k)) (fun k h => W1 (ix2 (cellRowOfW1 k) h))
    (fun k h => W1 (ix2 (drugRowOfW1 k) h)) (fun h => b1 (ix1 h)) (fun h j => W2 (ix2 h j)) (fun j => b2 (ix1 j)) (i 2)

/-- The score of every (cell, drug) pair, from the argument arrays. -/
def scoreGrid (cell : FVec Ideal ⟨2, ![512, 512]⟩ .f32) (drug : FVec Ideal ⟨2, ![256, 278]⟩ .f32)
    (W1 : FVec Ideal ⟨2, ![790, 512]⟩ .f32) (b1 : FVec Ideal ⟨1, ![512]⟩ .f32) (W2 : FVec Ideal ⟨2, ![512, 64]⟩ .f32)
    (b2 : FVec Ideal ⟨1, ![64]⟩ .f32) (W3 : FVec Ideal ⟨2, ![64, 1]⟩ .f32) (b3 : FVec Ideal ⟨1, ![1]⟩ .f32) :
    FVec Ideal ⟨2, ![512, 256]⟩ .f32 := fun i =>
  score (fun j => featsGrid cell drug W1 b1 W2 b2 (ix3 (i 0) (i 1) j)) (fun j => W3 (ix2 j (0 : Fin 1))) (b3 (ix1 (0 : Fin 1)))

end Cert.Spec

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.Tile.lean ====
/-
  What one grid point's body computes, as functions of the blocks it loads.

  The body takes a tile of 32 cell rows and a tile of 128 drug rows. It projects both through the two blocks of the first
  layer's weights, adds every cell projection to every drug projection and the bias (a [32, 128, 512] tile), clips at zero,
  flattens the 32 × 128 pairs into 4096 rows (pair (p, q) is row 128·p + q), applies the second layer to all rows at once,
  and from that [4096, 64] tile both stores the features (un-flattened to [32, 128, 64]) and applies the third layer and
  the logistic (un-flattened to [32, 128]). Read at one pair, every step is the scorer of `Spec` at that pair's two rows:
  the matrix products are plain sums at the ideal values, and the casts and broadcasts only move indices.
-/
import proofs.«113435_j14370960572455_1_alg».proof.Proof.Gen.KernelIdeal.Skeleton
import proofs.«113435_j14370960572455_1_alg».proof.Proof.Spec
import proofs.«113435_j14370960572455_1_alg».proof.Proof.LibMatmul2
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Spec

/-! ## The four matrix products as sums -/

/-- The cell tile against the cell block of the first layer's weights. -/
theorem mm_cell {φ₁ φ₂ : FTy} (a : FVec Ideal S32x512 φ₁) (b : FVec Ideal S512x512 φ₂) (p : Fin 32) (h : Fin 512) :
    matmul dot_S32x512_S512x512_S32x512_1_0_0_1_n_n none a b (constant S32x512 .f32 0x00000000#32) (ix2 p h)
      = ∑ k : Fin 512, a (ix2 p k) * b (ix2 k h) :=
  Cert.LibMatmul2.matmul_zero_apply dot_S32x512_S512x512_S32x512_1_0_0_1_n_n rfl rfl
    (fun i q => by
      unfold DotDims.lhsIdx
      rw [dif_neg (show ¬(0 : Fin S32x512.rank) ∈ dot_S32x512_S512x512_S32x512_1_0_0_1_n_n.lhsBatch by decide),
        dif_pos (show (0 : Fin S32x512.rank) ∈ dot_S32x512_S512x512_S32x512_1_0_0_1_n_n.lhsNonContracting by decide)]
      rfl)
    (fun i q => dot_S32x512_S512x512_S32x512_1_0_0_1_n_n.lhsIdx_val_of_single rfl i q)
    (fun i q => dot_S32x512_S512x512_S32x512_1_0_0_1_n_n.rhsIdx_val_of_single rfl i q)
    (fun i q => by
      unfold DotDims.rhsIdx
      rw [dif_neg (show ¬(1 : Fin S512x512.rank) ∈ dot_S32x512_S512x512_S32x512_1_0_0_1_n_n.rhsBatch by decide),
        dif_pos (show (1 : Fin S512x512.rank) ∈ dot_S32x512_S512x512_S32x512_1_0_0_1_n_n.rhsNonContracting by decide)]
      rfl)
    a b p h

/-- The drug tile against the drug block of the first layer's weights. -/
theorem mm_drug {φ₁ φ₂ : FTy} (a : FVec Ideal S128x278 φ₁) (b : FVec Ideal S278x512 φ₂) (q : Fin 128) (h : Fin 512) :
    matmul dot_S128x278_S278x512_S128x512_1_0_0_1_n_n none a b (constant S128x512 .f32 0x00000000#32) (ix2 q h)
      = ∑ k : Fin 278, a (ix2 q k) * b (ix2 k h) :=
  Cert.LibMatmul2.matmul_zero_apply dot_S128x278_S278x512_S128x512_1_0_0_1_n_n rfl rfl
    (fun i r => by
      unfold DotDims.lhsIdx
      rw [dif_neg (show ¬(0 : Fin S128x278.rank) ∈ dot_S128x278_S278x512_S128x512_1_0_0_1_n_n.lhsBatch by decide),
        dif_pos (show (0 : Fin S128x278.rank) ∈ dot_S128x278_S278x512_S128x512_1_0_0_1_n_n.lhsNonContracting by decide)]
      rfl)
    (fun i r => dot_S128x278_S278x512_S128x512_1_0_0_1_n_n.lhsIdx_val_of_single rfl i r)
    (fun i r => dot_S128x278_S278x512_S128x512_1_0_0_1_n_n.rhsIdx_val_of_single rfl i r)
    (fun i r => by
      unfold DotDims.rhsIdx
      rw [dif_neg (show ¬(1 : Fin S278x512.rank) ∈ dot_S128x278_S278x512_S128x512_1_0_0_1_n_n.rhsBatch by decide),
        dif_pos (show (1 : Fin S278x512.rank) ∈ dot_S128x278_S278x512_S128x512_1_0_0_1_n_n.rhsNonContracting by decide)]
      rfl)
    a b q h

/-- The flattened first hidden layer against the second layer's weights. -/
theorem mm_second {φ₁ φ₂ : FTy} (a : FVec Ideal S4096x512 φ₁) (b : FVec Ideal S512x64 φ₂) (r : Fin 4096) (j : Fin 64) :
    matmul dot_S4096x512_S512x64_S4096x64_1_0_0_1_n_n none a b (constant S4096x64 .f32 0x00000000#32) (ix2 r j)
      = ∑ h : Fin 512, a (ix2 r h) * b (ix2 h j) :=
  Cert.LibMatmul2.matmul_zero_apply dot_S4096x512_S512x64_S4096x64_1_0_0_1_n_n rfl rfl
    (fun i q => by
      unfold DotDims.lhsIdx
      rw [dif_neg (show ¬(0 : Fin S4096x512.rank) ∈ dot_S4096x512_S512x64_S4096x64_1_0_0_1_n_n.lhsBatch by decide),
        dif_pos (show (0 : Fin S4096x512.rank) ∈ dot_S4096x512_S512x64_S4096x64_1_0_0_1_n_n.lhsNonContracting by decide)]
      rfl)
    (fun i q => dot_S4096x512_S512x64_S4096x64_1_0_0_1_n_n.lhsIdx_val_of_single rfl i q)
    (fun i q => dot_S4096x512_S512x64_S4096x64_1_0_0_1_n_n.rhsIdx_val_of_single rfl i q)
    (fun i q => by
      unfold DotDims.rhsIdx
      rw [dif_neg (show ¬(1 : Fin S512x64.rank) ∈ dot_S4096x512_S512x64_S4096x64_1_0_0_1_n_n.rhsBatch by decide),
        dif_pos (show (1 : Fin S512x64.rank) ∈ dot_S4096x512_S512x64_S4096x64_1_0_0_1_n_n.rhsNonContracting by decide)]
      rfl)
    a b r j

/-- The flattened second hidden layer against the third layer's one column of weights. -/
theorem mm_third {φ₁ φ₂ : FTy} (a : FVec Ideal S4096x64 φ₁) (b : FVec Ideal S64x1 φ₂) (r : Fin 4096) (z : Fin 1) :
    matmul dot_S4096x64_S64x1_S4096x1_1_0_0_1_n_n none a b (constant S4096x1 .f32 0x00000000#32) (ix2 r z)
      = ∑ j : Fin 64, a (ix2 r j) * b (ix2 j z) :=
  Cert.LibMatmul2.matmul_zero_apply dot_S4096x64_S64x1_S4096x1_1_0_0_1_n_n rfl rfl
    (fun i q => by
      unfold DotDims.lhsIdx
      rw [dif_neg (show ¬(0 : Fin S4096x64.rank) ∈ dot_S4096x64_S64x1_S4096x1_1_0_0_1_n_n.lhsBatch by decide),
        dif_pos (show (0 : Fin S4096x64.rank) ∈ dot_S4096x64_S64x1_S4096x1_1_0_0_1_n_n.lhsNonContracting by decide)]
      rfl)
    (fun i q => dot_S4096x64_S64x1_S4096x1_1_0_0_1_n_n.lhsIdx_val_of_single rfl i q)
    (fun i q => dot_S4096x64_S64x1_S4096x1_1_0_0_1_n_n.rhsIdx_val_of_single rfl i q)
    (fun i q => by
      unfold DotDims.rhsIdx
      rw [dif_neg (show ¬(1 : Fin S64x1.rank) ∈ dot_S4096x64_S64x1_S4096x1_1_0_0_1_n_n.rhsBatch by decide),
        dif_pos (show (1 : Fin S64x1.rank) ∈ dot_S4096x64_S64x1_S4096x1_1_0_0_1_n_n.rhsNonContracting by decide)]
      rfl)
    a b r z

/-! ## The casts and broadcasts, read at a pair -/

/-- A cell projection [32, 512] given a middle unit axis and spread over the 128 drugs reads (p, q, h) at (p, h). -/
theorem spread_cell {α : Type} (c : S32x512.Idx → α) (p : Fin 32) (q : Fin 128) (h : Fin 512) :
    broadcastTo S32x128x512 (shapeCast S32x1x512 c shapeCasts_S32x512_S32x1x512) broadcasts_S32x1x512_S32x128x512 (ix3 p q h)
      = c (ix2 p h) := by
  refine (broadcastTo_apply _ _ (ix3 p q h) (ix3 p (0 : Fin 1) h) (fun a => ?_)).trans ?_
  · match a with
    | ⟨0, _⟩ => show p.val = if (32 : Nat) = 1 then 0 else p.val; rw [if_neg (by decide)]
    | ⟨1, _⟩ => show 0 = if (1 : Nat) = 1 then 0 else q.val; rw [if_pos rfl]
    | ⟨2, _⟩ => show h.val = if (512 : Nat) = 1 then 0 else h.val; rw [if_neg (by decide)]
  · refine shapeCast_apply c _ (ix3 p (0 : Fin 1) h) (ix2 p h) ?_
    rw [Shape.rowMajor_val_two, Shape.rowMajor_val_three]
    show p.val * 512 + h.val = (p.val * 1 + 0) * 512 + h.val
    omega

/-- A drug projection [128, 512] given a leading unit axis and spread over the 32 cells reads (p, q, h) at (q, h). -/
theorem spread_drug {α : Type} (d : S128x512.Idx → α) (p : Fin 32) (q : Fin 128) (h : Fin 512) :
    broadcastTo S32x128x512 (shapeCast S1x128x512 d shapeCasts_S128x512_S1x128x512) broadcasts_S1x128x512_S32x128x512 (ix3 p q h)
      = d (ix2 q h) := by
  refine (broadcastTo_apply _ _ (ix3 p q h) (ix3 (0 : Fin 1) q h) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show h.val = if (512 : Nat) = 1 then 0 else h.val; rw [if_neg (by decide)]
  · refine shapeCast_apply d _ (ix3 (0 : Fin 1) q h) (ix2 q h) ?_
    rw [Shape.rowMajor_val_two, Shape.rowMajor_val_three]
    show q.val * 512 + h.val = (0 * 128 + q.val) * 512 + h.val
    omega

/-- The first bias [1, 512] given a further leading unit axis and spread over all pairs reads (p, q, h) at (0, h). -/
theorem spread_bias1 {α : Type} (b : S1x512.Idx → α) (p : Fin 32) (q : Fin 128) (h : Fin 512) :
    broadcastTo S32x128x512 (shapeCast S1x1x512 (shapeCast S1x512 b shapeCasts_S1x512_S1x512) shapeCasts_S1x512_S1x1x512)
        broadcasts_S1x1x512_S32x128x512 (ix3 p q h)
      = b (ix2 (0 : Fin 1) h) := by
  rw [shapeCast_self]
  refine (broadcastTo_apply _ _ (ix3 p q h) (ix3 (0 : Fin 1) (0 : Fin 1) h) (fun a => ?_)).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show h.val = if (512 : Nat) = 1 then 0 else h.val; rw [if_neg (by decide)]
  · refine shapeCast_apply b _ (ix3 (0 : Fin 1) (0 : Fin 1) h) (ix2 (0 : Fin 1) h) ?_
    rw [Shape.rowMajor_val_two, Shape.rowMajor_val_three]
    show 0 * 512 + h.val = (0 * 1 + 0) * 512 + h.val
    omega

/-- Flattening the pairs: row 128·p + q of the [4096, 512] view is pair (p, q) of the [32, 128, 512] tile. -/
theorem flatten_pairs {α : Type} (X : S32x128x512.Idx → α) (p : Fin 32) (q : Fin 128) (h : Fin 512) (r : Fin 4096)
    (hr : r.val = p.val * 128 + q.val) :
    shapeCast S4096x512 X shapeCasts_S32x128x512_S4096x512 (ix2 r h) = X (ix3 p q h) := by
  refine shapeCast_apply X _ (ix2 r h) (ix3 p q h) ?_
  rw [Shape.rowMajor_val_two, Shape.rowMajor_val_three]
  show (p.val * 128 + q.val) * 512 + h.val = r.val * 512 + h.val
  rw [hr]

/-- The second bias [1, 64] spread over the 4096 rows reads (r, j) at (0, j). -/
theorem spread_bias2 {α : Type} (b : S1x64.Idx → α) (r : Fin 4096) (j : Fin 64) :
    broadcastTo S4096x64 (shapeCast S1x64 b shapeCasts_S1x64_S1x64) broadcasts_S1x64_S4096x64 (ix2 r j) = b (ix2 (0 : Fin 1) j) := by
  rw [shapeCast_self]
  refine broadcastTo_apply b _ (ix2 r j) (ix2 (0 : Fin 1) j) (fun a => ?_)
  match a with
  | ⟨0, _⟩ => show 0 = if (1 : Nat) = 1 then 0 else r.val; rw [if_pos rfl]
  | ⟨1, _⟩ => show j.val = if (64 : Nat) = 1 then 0 else j.val; rw [if_neg (by decide)]

/-- Un-flattening the features: pair (p, q) of the [32, 128, 64] view is row 128·p + q of the [4096, 64] tile. -/
theorem unflatten_feats {α : Type} (X : S4096x64.Idx → α) (p : Fin 32) (q : Fin 128) (j : Fin 64) (r : Fin 4096)
    (hr : r.val = p.val * 128 + q.val) :
    shapeCast S32x128x64 X shapeCasts_S4096x64_S32x128x64 (ix3 p q j) = X (ix2 r j) := by
  refine shapeCast_apply X _ (ix3 p q j) (ix2 r j) ?_
  rw [Shape.rowMajor_val_two, Shape.rowMajor_val_three]
  show r.val * 64 + j.val = (p.val * 128 + q.val) * 64 + j.val
  rw [hr]

/-- The third bias [1, 1] spread over the 4096 rows reads (r, 0) at (0, 0). -/
theorem spread_bias3 {α : Type} (b : S1x1.Idx → α) (r : Fin 4096) (z : Fin 1) :
    broadcastTo S4096x1 (shapeCast S1x1 b shapeCasts_S1x1_S1x1) broadcasts_S1x1_S4096x1 (ix2 r z) = b (ix2 (0 : Fin 1) (0 : Fin 1)) := by
  rw [shapeCast_self]
  refine broadcastTo_apply b _ (ix2 r z) (ix2 (0 : Fin 1) (0 : Fin 1)) (fun a => ?_)
  match a with
  | ⟨0, _⟩ => show 0 = if (1 : Nat) = 1 then 0 else r.val; rw [if_pos rfl]
  | ⟨1, _⟩ => show 0 = if (1 : Nat) = 1 then 0 else z.val; rw [if_pos rfl]

/-- Un-flattening the logits: pair (p, q) of the [32, 128] view is row 128·p + q of the [4096, 1] column. -/
theorem unflatten_logits {α : Type} (X : S4096x1.Idx → α) (p : Fin 32) (q : Fin 128) (r : Fin 4096)
    (hr : r.val = p.val * 128 + q.val) :
    shapeCast S32x128 (shapeCast S32x128x1 X shapeCasts_S4096x1_S32x128x1) shapeCasts_S32x128x1_S32x128 (ix2 p q)
      = X (ix2 r (0 : Fin 1)) := by
  refine (shapeCast_apply _ _ (ix2 p q) (ix3 p q (0 : Fin 1)) ?_).trans (shapeCast_apply X _ (ix3 p q (0 : Fin 1)) (ix2 r (0 : Fin 1)) ?_)
  · rw [Shape.rowMajor_val_two, Shape.rowMajor_val_three]
    show (p.val * 128 + q.val) * 1 + 0 = p.val * 128 + q.val
    omega
  · rw [Shape.rowMajor_val_two, Shape.rowMajor_val_three]
    show r.val * 1 + 0 = (p.val * 128 + q.val) * 1 + 0
    omega

/-! ## The tile's payloads at a pair -/

/-- The [4096, 64] feature tile at row 128·p + q, column j, is the second hidden layer of the tile's p-th cell row and q-th
    drug row. -/
theorem feats_rows_apply (x0 : Vec Ideal S32x512 .f32) (x2 : Vec Ideal S512x512 .f32) (x1 : Vec Ideal S128x278 .f32)
    (x3 : Vec Ideal S278x512 .f32) (x4 : Vec Ideal S1x512 .f32) (x5 : Vec Ideal S512x64 .f32) (x6 : Vec Ideal S1x64 .f32)
    (p : Fin 32) (q : Fin 128) (j : Fin 64) (r : Fin 4096) (hr : r.val = p.val * 128 + q.val) :
    k0_pay2 (F := Ideal) x0 x2 x1 x3 x4 x5 x6 (ix2 r j)
      = hidden2 (fun k => x0 (ix2 p k)) (fun k => x1 (ix2 q k)) (fun k h => x2 (ix2 k h)) (fun k h => x3 (ix2 k h))
          (fun h => x4 (ix2 (0 : Fin 1) h)) (fun h j => x5 (ix2 h j)) (fun j => x6 (ix2 (0 : Fin 1) j)) j := by
  unfold k0_pay2 hidden2
  dsimp only
  rw [maximumf_apply, addf_apply, mm_second, spread_bias2, broadcast_apply]
  rw [show FloatOps.ofBits (F := Ideal) FTy.f32 0#32 = (0 : EReal) from Ideal.ofBits_zero_f32]
  refine congrArg (fun s => max (s + x6 (ix2 (0 : Fin 1) j)) 0) (Finset.sum_congr rfl fun h _ => ?_)
  rw [truncf_apply, truncf_apply, flatten_pairs _ p q h r hr]
  unfold hidden1
  rw [maximumf_apply, addf_apply, addf_apply, spread_cell, spread_drug, spread_bias1, mm_cell, mm_drug, broadcast_apply]
  simp only [truncf_apply, shapeCast_self]

/-- The stored [32, 128, 64] feature tile at pair (p, q), column j: the same, un-flattened. -/
theorem feats_tile_apply (x0 : Vec Ideal S32x512 .f32) (x2 : Vec Ideal S512x512 .f32) (x1 : Vec Ideal S128x278 .f32)
    (x3 : Vec Ideal S278x512 .f32) (x4 : Vec Ideal S1x512 .f32) (x5 : Vec Ideal S512x64 .f32) (x6 : Vec Ideal S1x64 .f32)
    (p : Fin 32) (q : Fin 128) (j : Fin 64) :
    k0_pay3 (F := Ideal) x0 x2 x1 x3 x4 x5 x6 (ix3 p q j)
      = hidden2 (fun k => x0 (ix2 p k)) (fun k => x1 (ix2 q k)) (fun k h => x2 (ix2 k h)) (fun k h => x3 (ix2 k h))
          (fun h => x4 (ix2 (0 : Fin 1) h)) (fun h j => x5 (ix2 h j)) (fun j => x6 (ix2 (0 : Fin 1) j)) j := by
  have hlt : p.val * 128 + q.val < 4096 := by have := p.isLt; have := q.isLt; omega
  unfold k0_pay3
  rw [unflatten_feats _ p q j ⟨p.val * 128 + q.val, hlt⟩ rfl]
  exact feats_rows_apply x0 x2 x1 x3 x4 x5 x6 p q j ⟨p.val * 128 + q.val, hlt⟩ rfl

/-- The stored [32, 128] score tile at pair (p, q), from a [4096, 64] feature tile `f`: the logistic of row 128·p + q
    of `f` against the third layer's weights, plus its bias. -/
theorem score_tile_apply (f : FVec Ideal S4096x64 .f32) (x7 : Vec Ideal S64x1 .f32) (x8 : Vec Ideal S1x1 .f32)
    (p : Fin 32) (q : Fin 128) (r : Fin 4096) (hr : r.val = p.val * 128 + q.val) :
    k0_pay1 (F := Ideal) f x7 x8 (ix2 p q)
      = score (fun j => f (ix2 r j)) (fun j => x7 (ix2 j (0 : Fin 1))) (x8 (ix2 (0 : Fin 1) (0 : Fin 1))) := by
  unfold k0_pay1 score logit
  dsimp only
  show Ideal.logistic _ = _
  refine congrArg Ideal.logistic ?_
  rw [unflatten_logits _ p q r hr, addf_apply, mm_third, spread_bias3]
  simp only [truncf_apply]

end Cert.KernelIdeal.Tile

end
-- ==== Proof.Grid.lean ====
/-
  From the tiles to the whole grids of features and scores.

  The 32 grid points are the pairs (i, j) of 16 cell tiles and 2 drug tiles. Point (i, j) reads cell rows 32·i … 32·i + 31 and
  drug rows 128·j … 128·j + 127, together with the whole of the two weight blocks (rows 0 … 511 and 512 … 789 of the first
  layer's matrix, sliced off before the call), the biases (given a leading unit axis before the call) and the later
  layers' weights. It writes block (i, j) of the [512, 256] scores and block (i, j, 0) of the [512, 256, 64] features. By
  `Tile`, at pair (p, q) of the block these are `Spec`'s scorer of the tile's p-th cell row and q-th drug row, which are
  rows 32·i + p and 128·j + q of the arguments: so each block is the matching block of `scoreGrid` / `featsGrid` of the
  arguments. The 32 blocks tile both arrays, so the arrays end holding the two grids, and the two reshapes after the call
  flatten them.
-/
import proofs.«113435_j14370960572455_1_alg».proof.Proof.Gen.KernelIdeal.Frame
import proofs.«113435_j14370960572455_1_alg».proof.Proof.Tile
import Idealize.ShloMosaic.Lib.Pipeline.Value
import Idealize.ShloMosaic.Lib.StableHlo.Run
import Idealize.ShloMosaic.Lib.Tactic

set_option maxRecDepth 16384

noncomputable section

namespace Cert.KernelIdeal.Grid

open Cert.KernelIdeal Cert.KernelIdeal.Gen Cert.KernelIdeal.Tile Idealize.ShloMosaic Idealize.ShloMosaic.TcCoe
  Idealize.ShloMosaic.ValueIdx Idealize.ShloMosaic.StableHlo Idealize.SL.Sem Cert.Spec
open Idealize.ShloMosaic.Pipeline (Dat)

variable (m : (ℓ : Loc nD τ sig) → Buf (Elt Ideal) ℓ) (ρ : Dev nD → PrngReg)

/-! ## What the region finds in the arrays the host wrote before it -/

/-- The cell block of the first layer's weights: rows 0 … 511 of the matrix. -/
theorem found_w1c (c : Dev nD) : (V m c main_v0 : S512x512.Idx → EReal)
    = extractStridedSlice S512x512 ![0, 0] (m ((c : Thread nD τ).loc main_arg2)) slices_S790x512_S512x512_0_0 := by
  show StableHlo.after hostOps0 (fun b => m (c, b)) (Proc.devRef .tc main_v0) = _
  after_results <;> rfl

/-- The drug block: rows 512 … 789. -/
theorem found_w1d (c : Dev nD) : (V m c main_v1 : S278x512.Idx → EReal)
    = extractStridedSlice S278x512 ![512, 0] (m ((c : Thread nD τ).loc main_arg2)) slices_S790x512_S278x512_512_0 := by
  show StableHlo.after hostOps0 (fun b => m (c, b)) (Proc.devRef .tc main_v1) = _
  after_results <;> rfl

/-- The first bias as a one-row matrix. -/
theorem found_b1 (c : Dev nD) : (V m c main_v2 : S1x512.Idx → EReal)
    = shapeCast S1x512 (m ((c : Thread nD τ).loc main_arg3)) shapeCasts_S512_S1x512 := by
  show StableHlo.after hostOps0 (fun b => m (c, b)) (Proc.devRef .tc main_v2) = _
  after_results <;> rfl

/-- The second bias as a one-row matrix. -/
theorem found_b2 (c : Dev nD) : (V m c main_v3 : S1x64.Idx → EReal)
    = shapeCast S1x64 (m ((c : Thread nD τ).loc main_arg5)) shapeCasts_S64_S1x64 := by
  show StableHlo.after hostOps0 (fun b => m (c, b)) (Proc.devRef .tc main_v3) = _
  after_results <;> rfl

/-- The third bias as a one-by-one matrix. -/
theorem found_b3 (c : Dev nD) : (V m c main_v4 : S1x1.Idx → EReal)
    = shapeCast S1x1 (m ((c : Thread nD τ).loc main_arg7)) shapeCasts_S1_S1x1 := by
  show StableHlo.after hostOps0 (fun b => m (c, b)) (Proc.devRef .tc main_v4) = _
  after_results <;> rfl

/-! ## The index maps over the grid -/

/-- Decided over the 32 points: the cell tile and the two output blocks move together on the cell axis, the drug tile and
    the output blocks together on the drug axis, every other block index is zero, and the output's block indices stay below
    16 and 2. -/
theorem idx_facts : ∀ t : Fin cfg0.N,
    win0_0.index t (0 : Fin 2) = win0_10.index t (0 : Fin 3) ∧ win0_0.index t (1 : Fin 2) = 0
    ∧ win0_1.index t (0 : Fin 2) = win0_10.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = win0_10.index t (0 : Fin 3) ∧ win0_9.index t (1 : Fin 2) = win0_10.index t (1 : Fin 3)
    ∧ win0_10.index t (2 : Fin 3) = 0
    ∧ win0_10.index t (0 : Fin 3) ≤ 15 ∧ win0_10.index t (1 : Fin 3) ≤ 1 :=
  (by decide +kernel : ∀ t : Fin grid0.N, _)

/-- Every (cell tile, drug tile) pair is some point's. -/
theorem idx_onto : ∀ (i : Fin 16) (j : Fin 2), ∃ t : Fin cfg0.N, win0_10.index t = ![i.val, j.val, 0] :=
  (by decide +kernel : ∀ (i : Fin 16) (j : Fin 2), ∃ t : Fin grid0.N, win0_10.index t = ![i.val, j.val, 0])

/-! ## The blocks a point reads, as rows of the arguments -/

/-- Row p of the point's cell tile is row 32·i + p of the cell array. -/
theorem cell_tile_apply (c : Dev nD) (t : Fin cfg0.N) (p : Fin 32) (k : Fin 512) (P : Fin 512)
    (hP : P.val = win0_10.index t (0 : Fin 3) * 32 + p.val) :
    (iblk m c 0 t : S32x512.Idx → EReal) (ix2 p k) = (m ((c : Thread nD τ).loc main_arg0) : S512x512.Idx → EReal) (ix2 P k) := by
  obtain ⟨e0, e1, -⟩ := idx_facts t
  unfold iblk
  show V m c main_arg0 (((cfg0.win 0).blk t).view.emb (ix2 p k)) = _
  rw [V_main_arg0 m c]
  refine congrArg _ (funext fun a => Fin.ext ?_)
  match a with
  | ⟨0, _⟩ => show win0_0.index t (0 : Fin 2) * 32 + 1 * p.val = P.val; rw [e0, hP]; omega
  | ⟨1, _⟩ => show win0_0.index t (1 : Fin 2) * 512 + 1 * k.val = k.val; rw [e1]; omega

/-- Row q of the point's drug tile is row 128·j + q of the drug array. -/
theorem drug_tile_apply (c : Dev nD) (t : Fin cfg0.N) (q : Fin 128) (k : Fin 278) (Q : Fin 256)
    (hQ : Q.val = win0_10.index t (1 : Fin 3) * 128 + q.val) :
    (iblk m c 1 t : S128x278.Idx → EReal) (ix2 q k) = (m ((c : Thread nD τ).loc main_arg1) : S256x278.Idx → EReal) (ix2 Q k) := by
  obtain ⟨e0, e1, e2, e3, e4, e5, e6, e7, e8, e9, e10, e11, e12, e13, e14, e15, e16, e17, e18, e19, e20, e21, e22⟩ := idx_facts t
  unfold iblk
  show V m c main_arg1 (((cfg0.win 1).blk t).view.emb (ix2 q k)) = _
  rw [V_main_arg1 m c]
  refine congrArg _ (funext fun a => Fin.ext ?_)
  match a with
  | ⟨0, _⟩ => show win0_1.index t (0 : Fin 2) * 128 + 1 * q.val = Q.val; rw [e2, hQ]; omega
  | ⟨1, _⟩ => show win0_1.index t (1 : Fin 2) * 278 + 1 * k.val = k.val; rw [e3]; omega

/-- The cell block of the weights, whole at every point: row k is row k of the first layer's matrix. -/
theorem w1c_apply (c : Dev nD) (t : Fin cfg0.N) (k : Fin 512) (h : Fin 512) :
    (iblk m c 2 t : S512x512.Idx → EReal) (ix2 k h)
      = (m ((c : Thread nD τ).loc main_arg2) : S790x512.Idx → EReal) (ix2 (cellRowOfW1 k) h) := by
  obtain ⟨e0, e1, e2, e3, e4, e5, e6, e7, e8, e9, e10, e11, e12, e13, e14, e15, e16, e17, e18, e19, e20, e21, e22⟩ := idx_facts t
  unfold iblk
  show V m c main_v0 (((cfg0.win 2).blk t).view.emb (ix2 k h)) = _
  rw [found_w1c m c]
  refine extractStridedSlice_apply _ _ _ _ (ix2 (cellRowOfW1 k) h) (fun a => ?_)
  match a with
  | ⟨0, _⟩ => show k.val = 0 + (win0_2.index t (0 : Fin 2) * 512 + 1 * k.val); rw [e4]; omega
  | ⟨1, _⟩ => show h.val = 0 + (win0_2.index t (1 : Fin 2) * 512 + 1 * h.val); rw [e5]; omega

/-- The drug block of the weights, whole at every point: row k is row 512 + k of the first layer's matrix. -/
theorem w1d_apply (c : Dev nD) (t : Fin cfg0.N) (k : Fin 278) (h : Fin 512) :
    (iblk m c 3 t : S278x512.Idx → EReal) (ix2 k h)
      = (m ((c : Thread nD τ).loc main_arg2) : S790x512.Idx → EReal) (ix2 (drugRowOfW1 k) h) := by
  obtain ⟨e0, e1, e2, e3, e4, e5, e6, e7, e8, e9, e10, e11, e12, e13, e14, e15, e16, e17, e18, e19, e20, e21, e22⟩ := idx_facts t
  unfold iblk
  show V m c main_v1 (((cfg0.win 3).blk t).view.emb (ix2 k h)) = _
  rw [found_w1d m c]
  refine extractStridedSlice_apply _ _ _ _ (ix2 (drugRowOfW1 k) h) (fun a => ?_)
  match a with
  | ⟨0, _⟩ => show 512 + k.val = 512 + (win0_3.index t (0 : Fin 2) * 278 + 1 * k.val); rw [e6]; omega
  | ⟨1, _⟩ => show h.val = 0 + (win0_3.index t (1 : Fin 2) * 512 + 1 * h.val); rw [e7]; omega

/-- The first bias, whole at every point. -/
theorem b1_apply (c : Dev nD) (t : Fin cfg0.N) (h : Fin 512) :
    (iblk m c 4 t : S1x512.Idx → EReal) (ix2 (0 : Fin 1) h) = (m ((c : Thread nD τ).loc main_arg3) : S512.Idx → EReal) (ix1 h) := by
  obtain ⟨e0, e1, e2, e3, e4, e5, e6, e7, e8, e9, e10, e11, e12, e13, e14, e15, e16, e17, e18, e19, e20, e21, e22⟩ := idx_facts t
  unfold iblk
  show V m c main_v2 (((cfg0.win 4).blk t).view.emb (ix2 (0 : Fin 1) h)) = _
  rw [found_b1 m c]
  refine shapeCast_apply _ _ _ (ix1 h) ?_
  rw [Shape.rowMajor_val_one, Shape.rowMajor_val_two]
  show h.val = (win0_4.index t (0 : Fin 2) * 1 + 1 * 0) * 512 + (win0_4.index t (1 : Fin 2) * 512 + 1 * h.val)
  rw [e8, e9]; omega

/-- The second layer's weights, whole at every point. -/
theorem w2_apply (c : Dev nD) (t : Fin cfg0.N) (h : Fin 512) (j : Fin 64) :
    (iblk m c 5 t : S512x64.Idx → EReal) (ix2 h j) = (m ((c : Thread nD τ).loc main_arg4) : S512x64.Idx → EReal) (ix2 h j) := by
  obtain ⟨e0, e1, e2, e3, e4, e5, e6, e7, e8, e9, e10, e11, e12, e13, e14, e15, e16, e17, e18, e19, e20, e21, e22⟩ := idx_facts t
  unfold iblk
  show V m c main_arg4 (((cfg0.win 5).blk t).view.emb (ix2 h j)) = _
  rw [V_main_arg4 m c]
  refine congrArg _ (funext fun a => Fin.ext ?_)
  match a with
  | ⟨0, _⟩ => show win0_5.index t (0 : Fin 2) * 512 + 1 * h.val = h.val; rw [e10]; omega
  | ⟨1, _⟩ => show win0_5.index t (1 : Fin 2) * 64 + 1 * j.val = j.val; rw [e11]; omega

/-- The second bias, whole at every point. -/
theorem b2_apply (c : Dev nD) (t : Fin cfg0.N) (j : Fin 64) :
    (iblk m c 6 t : S1x64.Idx → EReal) (ix2 (0 : Fin 1) j) = (m ((c : Thread nD τ).loc main_arg5) : S64.Idx → EReal) (ix1 j) := by
  obtain ⟨e0, e1, e2, e3, e4, e5, e6, e7, e8, e9, e10, e11, e12, e13, e14, e15, e16, e17, e18, e19, e20, e21, e22⟩ := idx_facts t
  unfold iblk
  show V m c main_v3 (((cfg0.win 6).blk t).view.emb (ix2 (0 : Fin 1) j)) = _
  rw [found_b2 m c]
  refine shapeCast_apply _ _ _ (ix1 j) ?_
  rw [Shape.rowMajor_val_one, Shape.rowMajor_val_two]
  show j.val = (win0_6.index t (0 : Fin 2) * 1 + 1 * 0) * 64 + (win0_6.index t (1 : Fin 2) * 64 + 1 * j.val)
  rw [e12, e13]; omega

/-- The third layer's column of weights, whole at every point. -/
theorem w3_apply (c : Dev nD) (t : Fin cfg0.N) (j : Fin 64) :
    (iblk m c 7 t : S64x1.Idx → EReal) (ix2 j (0 : Fin 1))
      = (m ((c : Thread nD τ).loc main_arg6) : S64x1.Idx → EReal) (ix2 j (0 : Fin 1)) := by
  obtain ⟨e0, e1, e2, e3, e4, e5, e6, e7, e8, e9, e10, e11, e12, e13, e14, e15, e16, e17, e18, e19, e20, e21, e22⟩ := idx_facts t
  unfold iblk
  show V m c main_arg6 (((cfg0.win 7).blk t).view.emb (ix2 j (0 : Fin 1))) = _
  rw [V_main_arg6 m c]
  refine congrArg _ (funext fun a => Fin.ext ?_)
  match a with
  | ⟨0, _⟩ => show win0_7.index t (0 : Fin 2) * 64 + 1 * j.val = j.val; rw [e14]; omega
  | ⟨1, _⟩ => show win0_7.index t (1 : Fin 2) * 1 + 1 * 0 = 0; rw [e15]

/-- The third bias, whole at every point. -/
theorem b3_apply (c : Dev nD) (t : Fin cfg0.N) :
    (iblk m c 8 t : S1x1.Idx → EReal) (ix2 (0 : Fin 1) (0 : Fin 1))
      = (m ((c : Thread nD τ).loc main_arg7) : S1.Idx → EReal) (ix1 (0 : Fin 1)) := by
  obtain ⟨e0, e1, e2, e3, e4, e5, e6, e7, e8, e9, e10, e11, e12, e13, e14, e15, e16, e17, e18, e19, e20, e21, e22⟩ := idx_facts t
  unfold iblk
  show V m c main_v4 (((cfg0.win 8).blk t).view.emb (ix2 (0 : Fin 1) (0 : Fin 1))) = _
  rw [found_b3 m c]
  refine shapeCast_apply _ _ _ (ix1 (0 : Fin 1)) ?_
  rw [Shape.rowMajor_val_one, Shape.rowMajor_val_two]
  show 0 = (win0_8.index t (0 : Fin 2) * 1 + 1 * 0) * 1 + (win0_8.index t (1 : Fin 2) * 1 + 1 * 0)
  rw [e16, e17]

end Cert.KernelIdeal.Grid

end
-- ==== Proof.Arrays.lean ====
/-
  The two result arrays after the run.

  Each block a point writes back is the matching block of `featsGrid` / `scoreGrid` of the arguments (the tile's rows are
  rows of the arguments: `Grid`; the tile's arithmetic is the scorer: `Tile`). The 32 blocks tile the [512, 256, 64] and the
  [512, 256] array, so after the last write-back the arrays hold the grids. The two reshapes after the call flatten the
  pair axes; the arguments end as they were.
-/
import proofs.«113435_j14370960572455_1_alg».proof.Proof.Grid

set_option maxRecDepth 16384

noncomputable section

namespace Cert.KernelIdeal.Arrays

open Cert.KernelIdeal Cert.KernelIdeal.Gen Cert.KernelIdeal.Tile Cert.KernelIdeal.Grid Idealize.ShloMosaic Idealize.ShloMosaic.TcCoe
  Idealize.ShloMosaic.ValueIdx Idealize.ShloMosaic.StableHlo Idealize.SL.Sem Cert.Spec
open Idealize.ShloMosaic.Pipeline (Dat)

variable (m : (ℓ : Loc nD τ sig) → Buf (Elt Ideal) ℓ) (ρ : Dev nD → PrngReg)

/-- The features of every pair, from the arguments as launched. -/
abbrev featsOf (c : Dev nD) : S512x256x64.Idx → EReal :=
  featsGrid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The score of every pair, from the arguments as launched. -/
abbrev scoresOf (c : Dev nD) : S512x256.Idx → EReal :=
  scoreGrid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem hz2 : (![0, 0] : Fin 2 → Nat) = fun _ => 0 := funext fun a => by fin_cases a <;> rfl
theorem hz3 : (![0, 0, 0] : Fin 3 → Nat) = fun _ => 0 := funext fun a => by fin_cases a <;> rfl

/-- The scorer's layers depend only on the values of the rows and weights they are given. -/
theorem hidden2_congr {a a' : Fin 512 → EReal} {d d' : Fin 278 → EReal} {wc wc' : Fin 512 → Fin 512 → EReal}
    {wd wd' : Fin 278 → Fin 512 → EReal} {b1 b1' : Fin 512 → EReal} {w2 w2' : Fin 512 → Fin 64 → EReal} {b2 b2' : Fin 64 → EReal}
    {j j' : Fin 64} (ha : a = a') (hd : d = d') (hwc : wc = wc') (hwd : wd = wd') (hb1 : b1 = b1') (hw2 : w2 = w2')
    (hb2 : b2 = b2') (hj : j = j') : hidden2 a d wc wd b1 w2 b2 j = hidden2 a' d' wc' wd' b1' w2' b2' j' := by
  subst ha hd hwc hwd hb1 hw2 hb2 hj; rfl

theorem score_congr {f f' w3 w3' : Fin 64 → EReal} {b3 b3' : EReal} (hf : f = f') (hw : w3 = w3') (hb : b3 = b3') :
    score f w3 b3 = score f' w3' b3' := by
  subst hf hw hb; rfl

/-- At point t, the second hidden layer of the tile's p-th cell row and q-th drug row is the features of the pair of rows
    32·i + p and 128·j + q of the arguments. -/
theorem pair_feats (c : Dev nD) (t : Fin cfg0.N) (p : Fin 32) (q : Fin 128) (j : Fin 64) (P : Fin 512) (Q : Fin 256)
    (hP : P.val = win0_10.index t (0 : Fin 3) * 32 + p.val) (hQ : Q.val = win0_10.index t (1 : Fin 3) * 128 + q.val) :
    hidden2 (fun k => (iblk m c 0 t : S32x512.Idx → EReal) (ix2 p k)) (fun k => (iblk m c 1 t : S128x278.Idx → EReal) (ix2 q k))
        (fun k h => (iblk m c 2 t : S512x512.Idx → EReal) (ix2 k h)) (fun k h => (iblk m c 3 t : S278x512.Idx → EReal) (ix2 k h))
        (fun h => (iblk m c 4 t : S1x512.Idx → EReal) (ix2 (0 : Fin 1) h)) (fun h j => (iblk m c 5 t : S512x64.Idx → EReal) (ix2 h j))
        (fun j => (iblk m c 6 t : S1x64.Idx → EReal) (ix2 (0 : Fin 1) j)) j
      = featsOf m c (ix3 P Q j) := by
  unfold featsOf featsGrid
  exact hidden2_congr (funext fun k => cell_tile_apply m c t p k P hP) (funext fun k => drug_tile_apply m c t q k Q hQ)
    (funext fun k => funext fun h => w1c_apply m c t k h) (funext fun k => funext fun h => w1d_apply m c t k h)
    (funext fun h => b1_apply m c t h) (funext fun h => funext fun j => w2_apply m c t h j) (funext fun j => b2_apply m c t j) rfl

/-! ## What a point writes back -/

/-- The feature block a point writes back is its block of `featsOf`. -/
theorem feats_block (c : Dev nD) (t : Fin cfg0.N) :
    (dats m 0 c).flushed 10 t = ((cfg0.win 10).blk t).view.read (Elt Ideal) (featsOf m c) := by
  show (cfg0.win 10).cut (grid0.coords t) ((dats m 0 c).after 10 t) = _
  rw [after0_10]
  unfold out0_10
  rw [View.canon_unit_zero hz3]
  simp only [View.ld_unit_zero (S := S32x512) hz2, View.ld_unit_zero (S := S512x512) hz2, View.ld_unit_zero (S := S128x278) hz2,
    View.ld_unit_zero (S := S278x512) hz2, View.ld_unit_zero (S := S1x512) hz2, View.ld_unit_zero (S := S512x64) hz2,
    View.ld_unit_zero (S := S1x64) hz2]
  funext y
  obtain ⟨p, q, j, rfl⟩ : ∃ (p : Fin 32) (q : Fin 128) (j : Fin 64), y = ix3 p q j := ⟨y 0, y 1, y 2, eq_ix3 y⟩
  refine (feats_tile_apply (iblk m c 0 t) (iblk m c 2 t) (iblk m c 1 t) (iblk m c 3 t) (iblk m c 4 t) (iblk m c 5 t)
    (iblk m c 6 t) p q j).trans ?_
  obtain ⟨e0, e1, e2, e3, e4, e5, e6, e7, e8, e9, e10, e11, e12, e13, e14, e15, e16, e17, e18, e19, e20, e21, e22⟩ := idx_facts t
  have hp := p.isLt
  have hq := q.isLt
  have hPlt : win0_10.index t (0 : Fin 3) * 32 + p.val < 512 := by omega
  have hQlt : win0_10.index t (1 : Fin 3) * 128 + q.val < 256 := by omega
  refine (pair_feats m c t p q j ⟨_, hPlt⟩ ⟨_, hQlt⟩ rfl rfl).trans ?_
  show featsOf m c _ = featsOf m c (((cfg0.win 10).blk t).view.emb (ix3 p q j))
  refine congrArg (featsOf m c) (funext fun a => Fin.ext ?_)
  match a with
  | ⟨0, _⟩ => show win0_10.index t (0 : Fin 3) * 32 + p.val = win0_10.index t (0 : Fin 3) * 32 + 1 * p.val; omega
  | ⟨1, _⟩ => show win0_10.index t (1 : Fin 3) * 128 + q.val = win0_10.index t (1 : Fin 3) * 128 + 1 * q.val; omega
  | ⟨2, _⟩ => show j.val = win0_10.index t (2 : Fin 3) * 64 + 1 * j.val; rw [e20]; omega

/-- The score block a point writes back is its block of `scoresOf`. -/
theorem scores_block (c : Dev nD) (t : Fin cfg0.N) :
    (dats m 0 c).flushed 9 t = ((cfg0.win 9).blk t).view.read (Elt Ideal) (scoresOf m c) := by
  show (cfg0.win 9).cut (grid0.coords t) ((dats m 0 c).after 9 t) = _
  rw [after0_9]
  unfold out0_9
  rw [View.canon_unit_zero hz2]
  simp only [View.ld_unit_zero (S := S32x512) hz2, View.ld_unit_zero (S := S512x512) hz2, View.ld_unit_zero (S := S128x278) hz2,
    View.ld_unit_zero (S := S278x512) hz2, View.ld_unit_zero (S := S1x512) hz2, View.ld_unit_zero (S := S512x64) hz2,
    View.ld_unit_zero (S := S1x64) hz2, View.ld_unit_zero (S := S64x1) hz2, View.ld_unit_zero (S := S1x1) hz2]
  funext y
  obtain ⟨p, q, rfl⟩ : ∃ (p : Fin 32) (q : Fin 128), y = ix2 p q := ⟨y 0, y 1, eq_ix2 y⟩
  obtain ⟨e0, e1, e2, e3, e4, e5, e6, e7, e8, e9, e10, e11, e12, e13, e14, e15, e16, e17, e18, e19, e20, e21, e22⟩ := idx_facts t
  have hp := p.isLt
  have hq := q.isLt
  have hr : p.val * 128 + q.val < 4096 := by omega
  have hPlt : win0_10.index t (0 : Fin 3) * 32 + p.val < 512 := by omega
  have hQlt : win0_10.index t (1 : Fin 3) * 128 + q.val < 256 := by omega
  refine (score_tile_apply _ (iblk m c 7 t) (iblk m c 8 t) p q ⟨_, hr⟩ rfl).trans ?_
  show _ = scoresOf m c (((cfg0.win 9).blk t).view.emb (ix2 p q))
  have hidx : ((cfg0.win 9).blk t).view.emb (ix2 p q)
      = ix2 (⟨_, hPlt⟩ : Fin 512) (⟨_, hQlt⟩ : Fin 256) := funext fun a => Fin.ext (by
    match a with
    | ⟨0, _⟩ => show win0_9.index t (0 : Fin 2) * 32 + 1 * p.val = win0_10.index t (0 : Fin 3) * 32 + p.val; rw [e18]; omega
    | ⟨1, _⟩ => show win0_9.index t (1 : Fin 2) * 128 + 1 * q.val = win0_10.index t (1 : Fin 3) * 128 + q.val; rw [e19]; omega)
  rw [hidx]
  unfold scoresOf scoreGrid
  refine score_congr (funext fun j => ?_) (funext fun j => w3_apply m c t j) (b3_apply m c t)
  exact (feats_rows_apply (iblk m c 0 t) (iblk m c 2 t) (iblk m c 1 t) (iblk m c 3 t) (iblk m c 4 t) (iblk m c 5 t)
    (iblk m c 6 t) p q j ⟨_, hr⟩ rfl).trans (pair_feats m c t p q j ⟨_, hPlt⟩ ⟨_, hQlt⟩ rfl rfl)

/-! ## The blocks tile the arrays -/

theorem mem_feats_blk (t : Fin cfg0.N) (i : S512x256x64.Idx) :
    i ∈ ((cfg0.win 10).blk t).view.set ↔ ∀ a : Fin 3, win0_10.index t a * S32x128x64.size a ≤ (i a).val
      ∧ (i a).val < win0_10.index t a * S32x128x64.size a + S32x128x64.size a := by
  show i ∈ ((View.whole main_v5_1).slice (win0_10.rect t)).set ↔ _
  rw [View.set_slice_whole, Rect.mem_set_unit]
  exact Iff.rfl

theorem mem_scores_blk (t : Fin cfg0.N) (i : S512x256.Idx) :
    i ∈ ((cfg0.win 9).blk t).view.set ↔ ∀ a : Fin 2, win0_9.index t a * S32x128.size a ≤ (i a).val
      ∧ (i a).val < win0_9.index t a * S32x128.size a + S32x128.size a := by
  show i ∈ ((View.whole main_v5_0).slice (win0_9.rect t)).set ↔ _
  rw [View.set_slice_whole, Rect.mem_set_unit]
  exact Iff.rfl

/-- Pair (P, Q) lies in the block of the point with cell tile P / 32 and drug tile Q / 128. -/
theorem feats_cover (i : S512x256x64.Idx) :
    ∃ t : Fin cfg0.N, (cfg0.win 10).flush t = true ∧ i ∈ ((cfg0.win 10).blk t).view.set := by
  have h0 : (i 0).val < 512 := (i 0).isLt
  have h1 : (i 1).val < 256 := (i 1).isLt
  have h2 : (i 2).val < 64 := (i 2).isLt
  obtain ⟨t, ht⟩ := idx_onto ⟨(i 0).val / 32, by omega⟩ ⟨(i 1).val / 128, by omega⟩
  have q0 : win0_10.index t (0 : Fin 3) = (i 0).val / 32 := congrFun ht 0
  have q1 : win0_10.index t (1 : Fin 3) = (i 1).val / 128 := congrFun ht 1
  have q2 : win0_10.index t (2 : Fin 3) = 0 := congrFun ht 2
  refine ⟨t, flush0_10 t, ?_⟩
  rw [mem_feats_blk]
  intro a
  match a with
  | ⟨0, _⟩ => show win0_10.index t (0 : Fin 3) * 32 ≤ (i 0).val ∧ (i 0).val < win0_10.index t (0 : Fin 3) * 32 + 32; omega
  | ⟨1, _⟩ => show win0_10.index t (1 : Fin 3) * 128 ≤ (i 1).val ∧ (i 1).val < win0_10.index t (1 : Fin 3) * 128 + 128; omega
  | ⟨2, _⟩ => show win0_10.index t (2 : Fin 3) * 64 ≤ (i 2).val ∧ (i 2).val < win0_10.index t (2 : Fin 3) * 64 + 64; omega

theorem scores_cover (i : S512x256.Idx) :
    ∃ t : Fin cfg0.N, (cfg0.win 9).flush t = true ∧ i ∈ ((cfg0.win 9).blk t).view.set := by
  have h0 : (i 0).val < 512 := (i 0).isLt
  have h1 : (i 1).val < 256 := (i 1).isLt
  obtain ⟨t, ht⟩ := idx_onto ⟨(i 0).val / 32, by omega⟩ ⟨(i 1).val / 128, by omega⟩
  have q0 : win0_10.index t (0 : Fin 3) = (i 0).val / 32 := congrFun ht 0
  have q1 : win0_10.index t (1 : Fin 3) = (i 1).val / 128 := congrFun ht 1
  obtain ⟨e0, e1, e2, e3, e4, e5, e6, e7, e8, e9, e10, e11, e12, e13, e14, e15, e16, e17, e18, e19, e20, e21, e22⟩ := idx_facts t
  refine ⟨t, flush0_9 t, ?_⟩
  rw [mem_scores_blk]
  intro a
  match a with
  | ⟨0, _⟩ => show win0_9.index t (0 : Fin 2) * 32 ≤ (i 0).val ∧ (i 0).val < win0_9.index t (0 : Fin 2) * 32 + 32; omega
  | ⟨1, _⟩ => show win0_9.index t (1 : Fin 2) * 128 ≤ (i 1).val ∧ (i 1).val < win0_9.index t (1 : Fin 2) * 128 + 128; omega

/-! ## The arrays after the last write-back, and the run -/

theorem feats_final (c : Dev nD) : (dats m 0 c).arrAt 10 cfg0.N = featsOf m c :=
  (dats m 0 c).arrAt_eq_of_cover 10 (featsOf m c) (fun t _ => feats_block m c t) feats_cover

theorem scores_final (c : Dev nD) : (dats m 0 c).arrAt 9 cfg0.N = scoresOf m c :=
  (dats m 0 c).arrAt_eq_of_cover 9 (scoresOf m c) (fun t _ => scores_block m c t) scores_cover

/-- The first reshape after the call flattens the scores. -/
theorem tail_scores (c : Dev nD) : Pipeline.afterTail₀ cfgs (dats m) 0 (V0 m) [hostOps1] c main_v6
    = shapeCast S131072 (scoresOf m c) shapeCasts_S512x256_S131072 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5_0)
      = scoresOf m c := (Pipeline.withArrays_arr spec0 launch0.win.arr_inj c _ _ 9).trans (scores_final m c)
  funext i
  show shapeCast S131072 (Pipeline.withArrays (cfgs 0).spec c (V0 m c) (fun w => (dats m 0 c).arrAt w (cfgs 0).N)
    (Proc.devRef .tc main_v5_0)) shapeCasts_S512x256_S131072 i = _
  rw [hw]

/-- The second reshape after the call flattens the features' pair axes. -/
theorem tail_feats (c : Dev nD) : Pipeline.afterTail₀ cfgs (dats m) 0 (V0 m) [hostOps1] c main_v7
    = shapeCast S131072x64 (featsOf m c) shapeCasts_S512x256x64_S131072x64 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v5_1)
      = featsOf m c := (Pipeline.withArrays_arr spec0 launch0.win.arr_inj c _ _ 10).trans (feats_final m c)
  funext i
  show shapeCast S131072x64 (Pipeline.withArrays (cfgs 0).spec c (V0 m c) (fun w => (dats m 0 c).arrAt w (cfgs 0).N)
    (Proc.devRef .tc main_v5_1)) shapeCasts_S512x256x64_S131072x64 i = _
  rw [hw]

/-- The run: the two results hold the flattened grids of the arguments as launched, and the arguments end unchanged. -/
theorem run : θ_run defs (onTc (τ := τ) (main (F := Ideal))) ⟨m, fun _ => 0, ρ⟩ fun r => ∀ c : Dev nD,
      r.2.mem ((c.tc : Thread nD τ).loc main_v6) = shapeCast S131072 (scoresOf m c) shapeCasts_S512x256_S131072
      ∧ r.2.mem ((c.tc : Thread nD τ).loc main_v7) = shapeCast S131072x64 (featsOf m c) shapeCasts_S512x256x64_S131072x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v6 (Pipeline.mem_restRefs_of main_v6 (by decide) (by decide))).trans (tail_scores m c),
      ((h c).2 main_v7 (Pipeline.mem_restRefs_of main_v7 (by decide) (by decide))).trans (tail_feats m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c))),
      ((h c).2 main_arg7 (Pipeline.mem_restRefs_of main_arg7 (by decide) (by decide))).trans (W_main_arg7 m (dats m) c)⟩)
    (run_main m ρ)

end Cert.KernelIdeal.Arrays

end
-- ==== Proof.RefValue.lean ====
/-
  The reference's stages are the scorer of `Spec` at every (cell, drug) pair.

  Read one operation at a time, the reference forms both projections as whole matrix products, adds them pairwise with the
  bias, clips, contracts the hidden axis against the second layer's weights, adds the bias and clips: at pair (P, Q) and
  feature j that is `hidden2` of cell row P and drug row Q, i.e. `featsGrid`. It then flattens the pairs (pair (P, Q) is row
  256·P + Q), multiplies by the third layer's one column, adds the bias, and spells the logistic out as
  1 / (1 + e^(−x)), which at the ideal values is the one function `Ideal.logistic`: flattened `scoreGrid`.
-/
import proofs.«113435_j14370960572455_1_alg».proof.Proof.Gen.ReferenceIdeal.Read
import proofs.«113435_j14370960572455_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx Cert.Spec

/-- The clipped second layer at a pair and a feature is `featsGrid` there. -/
theorem feats_apply (x0 : (⟨S512x512, .f32⟩ : BufTy).Contents (Elt Ideal)) (x1 : (⟨S256x278, .f32⟩ : BufTy).Contents (Elt Ideal))
    (x2 : (⟨S790x512, .f32⟩ : BufTy).Contents (Elt Ideal)) (x3 : (⟨S512, .f32⟩ : BufTy).Contents (Elt Ideal))
    (x4 : (⟨S512x64, .f32⟩ : BufTy).Contents (Elt Ideal)) (x5 : (⟨S64, .f32⟩ : BufTy).Contents (Elt Ideal)) (i : S512x256x64.Idx) :
    val_main_v17 (F := Ideal) x0 x1 x2 x3 x4 x5 i = featsGrid x0 x1 x2 x3 x4 x5 i := by
  rw [val_main_v17_apply, val_main_v16_apply, val_main_v13_apply, val_main_v15_apply, val_main_v14_apply,
    val_main_call1_v0_apply, val_main_call1_cst_apply]
  unfold featsGrid hidden2
  rw [show FloatOps.ofBits (F := Ideal) FTy.f32 0x00000000#32 = (0 : EReal) from Ideal.ofBits_zero_f32,
    Ideal.maximumf_def, Ideal.addf_def]
  refine congrArg₂ (fun s b => max (s + b) 0)
    (Finset.sum_congr rfl fun h _ => congrArg₂ (· * ·) ?_ (congrArg x4 ?_)) (congrArg x5 ?_)
  · rw [val_main_v12_apply, val_main_v11_apply, val_main_v8_apply, val_main_v6_apply, val_main_v4_apply, val_main_v1_apply,
      val_main_v7_apply, val_main_v5_apply, val_main_v3_apply, val_main_v10_apply, val_main_v9_apply,
      val_main_call0_v0_apply, val_main_call0_cst_apply]
    unfold hidden1
    rw [show FloatOps.ofBits (F := Ideal) FTy.f32 0x00000000#32 = (0 : EReal) from Ideal.ofBits_zero_f32,
      Ideal.maximumf_def, Ideal.addf_def, Ideal.addf_def]
    refine congrArg (fun s => max s 0) (congrArg₂ (· + ·) (congrArg₂ (· + ·)
      (Finset.sum_congr rfl fun k _ => congrArg₂ (· * ·) (congrArg x0 ?_) ((val_main_v0_apply x2 _).trans (congrArg x2 ?_)))
      (Finset.sum_congr rfl fun k _ => congrArg₂ (· * ·) (congrArg x1 ?_) ((val_main_v2_apply x2 _).trans (congrArg x2 ?_))))
      (congrArg x3 ?_))
    · funext a; apply Fin.ext; match a with | ⟨0, _⟩ => rfl | ⟨1, _⟩ => rfl
    · funext a; apply Fin.ext; match a with | ⟨0, _⟩ => rfl | ⟨1, _⟩ => rfl
    · funext a; apply Fin.ext; match a with | ⟨0, _⟩ => rfl | ⟨1, _⟩ => rfl
    · funext a; apply Fin.ext; match a with | ⟨0, _⟩ => rfl | ⟨1, _⟩ => rfl
    · funext a; apply Fin.ext; match a with | ⟨0, _⟩ => rfl
  · funext a; apply Fin.ext; match a with | ⟨0, _⟩ => rfl | ⟨1, _⟩ => rfl
  · funext a; apply Fin.ext; match a with | ⟨0, _⟩ => rfl

/-- The clipped second layer, whole: `featsGrid` of the arguments. -/
theorem feats_eq (x0 : (⟨S512x512, .f32⟩ : BufTy).Contents (Elt Ideal)) (x1 : (⟨S256x278, .f32⟩ : BufTy).Contents (Elt Ideal))
    (x2 : (⟨S790x512, .f32⟩ : BufTy).Contents (Elt Ideal)) (x3 : (⟨S512, .f32⟩ : BufTy).Contents (Elt Ideal))
    (x4 : (⟨S512x64, .f32⟩ : BufTy).Contents (Elt Ideal)) (x5 : (⟨S64, .f32⟩ : BufTy).Contents (Elt Ideal)) :
    val_main_v17 (F := Ideal) x0 x1 x2 x3 x4 x5 = featsGrid x0 x1 x2 x3 x4 x5 :=
  funext fun i => feats_apply x0 x1 x2 x3 x4 x5 i

/-- The reference's scores, a vector over the 131072 flattened pairs, are `scoreGrid` flattened: entry r is pair
    (r / 256, r mod 256), its logit the row of features against the third layer's column plus the bias, and
    1 / (1 + e^(−logit)) is the logistic. -/
theorem score_eq (x0 : (⟨S512x512, .f32⟩ : BufTy).Contents (Elt Ideal)) (x1 : (⟨S256x278, .f32⟩ : BufTy).Contents (Elt Ideal))
    (x2 : (⟨S790x512, .f32⟩ : BufTy).Contents (Elt Ideal)) (x3 : (⟨S512, .f32⟩ : BufTy).Contents (Elt Ideal))
    (x4 : (⟨S512x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal))
    (hc : (⟨2, ![512, 256]⟩ : Shape).ShapeCasts S131072) :
    val_main_v29 (F := Ideal) x0 x1 x2 x3 x4 x5 x6 x7 = shapeCast S131072 (scoreGrid x0 x1 x2 x3 x4 x5 x6 x7) hc := by
  funext i
  have hi : (i 0).val < 131072 := (i 0).isLt
  have hP : (i 0).val / 256 < 512 := by omega
  have hQ : (i 0).val % 256 < 256 := by omega
  rw [shapeCast_apply _ hc i (ix2 (⟨(i 0).val / 256, hP⟩ : Fin 512) (⟨(i 0).val % 256, hQ⟩ : Fin 256)) (by
    rw [Shape.rowMajor_val_two, Shape.rowMajor_val_one]
    show (i 0).val / 256 * 256 + (i 0).val % 256 = (i 0).val
    omega)]
  rw [val_main_v29_apply, val_main_v28_apply, val_main_cst_0_apply, val_main_v27_apply, val_main_v26_apply, val_main_cst_apply,
    val_main_v25_apply, val_main_v24_apply, val_main_v23_apply, val_main_v22_apply, val_main_v19_apply, val_main_v21_apply,
    val_main_v20_apply]
  unfold scoreGrid score logit
  rw [show FloatOps.ofBits (F := Ideal) FTy.f32 0x3F800000#32 = (1 : EReal) from Ideal.ofBits_one_f32]
  show Ideal.logistic _ = Ideal.logistic _
  refine congrArg Ideal.logistic ?_
  rw [Ideal.addf_def]
  refine congrArg₂ (· + ·) (Finset.sum_congr rfl fun k _ => congrArg₂ (· * ·) ?_ (congrArg x6 ?_)) (congrArg x7 ?_)
  · rw [val_main_v18_apply, feats_apply]
    refine congrArg (featsGrid x0 x1 x2 x3 x4 x5) ?_
    have hk : k.val < 64 := k.isLt
    funext a; apply Fin.ext
    match a with
    | ⟨0, _⟩ => show ((i 0).val / 1 * 64 + k.val) / 16384 = (i 0).val / 256; omega
    | ⟨1, _⟩ => show ((i 0).val / 1 * 64 + k.val) / 64 % 256 = (i 0).val % 256; omega
    | ⟨2, _⟩ => show ((i 0).val / 1 * 64 + k.val) % 64 = k.val; omega
  · funext a; apply Fin.ext; match a with | ⟨0, _⟩ => rfl | ⟨1, _⟩ => rfl
  · funext a; apply Fin.ext; match a with | ⟨0, _⟩ => rfl

end Cert.ReferenceIdeal.RefValue

end
-- ==== Proof.lean ====
/-
  Pairwise cell × drug scoring: a three-layer perceptron on every (cell, drug) pair, the first layer applied to the
  concatenated embeddings as two matrix products (the cell and the drug blocks of its weights) added pairwise.

  Over the extended reals both programs compute, for cell row P and drug row Q,
    hidden1 h = max (Σₖ cell[P,k]·W1[k,h] + Σₖ drug[Q,k]·W1[512+k,h] + b1[h]) 0,
    hidden2 j = max (Σₕ hidden1 h · W2[h,j] + b2[j]) 0,      score = logistic (Σⱼ hidden2 j · W3[j,0] + b3[0]),
  and return the scores flattened over the pairs and the second hidden layer flattened likewise. The kernel does it tile
  by tile (32 cells × 128 drugs per grid point, the pairs of a tile flattened into rows for the later matrix products) and
  uses the logistic as one operation; the reference does it on whole arrays and spells the logistic 1 / (1 + e^(−x)).
  At the ideal values a matrix product is a plain sum, a change of float format the identity and both spellings of the
  logistic one function, so the two sides are the same sums of the same terms: no algebraic law is needed and the
  finiteness of the inputs is never used.

  `Spec` states the scorer; `Tile` reads the kernel body's payloads at a pair; `Grid` reads a grid point's blocks as rows
  of the arguments; `Arrays` assembles the blocks into the two result arrays and reads the run; `RefValue` reads the
  reference's stages. Here the five claims are put together.
-/
import proofs.«113435_j14370960572455_1_alg».proof.Defs
import proofs.«113435_j14370960572455_1_alg».proof.Proof.Gen.Kernel
import proofs.«113435_j14370960572455_1_alg».proof.Proof.Gen.Kernel.Skeleton
import proofs.«113435_j14370960572455_1_alg».proof.Proof.Gen.Kernel.Launch
import proofs.«113435_j14370960572455_1_alg».proof.Proof.Gen.Kernel.Points
import proofs.«113435_j14370960572455_1_alg».proof.Proof.Gen.Kernel.Frame
import proofs.«113435_j14370960572455_1_alg».proof.Proof.Gen.KernelIdeal
import proofs.«113435_j14370960572455_1_alg».proof.Proof.Gen.KernelIdeal.Skeleton
import proofs.«113435_j14370960572455_1_alg».proof.Proof.Gen.KernelIdeal.Launch
import proofs.«113435_j14370960572455_1_alg».proof.Proof.Gen.KernelIdeal.Points
import proofs.«113435_j14370960572455_1_alg».proof.Proof.Gen.KernelIdeal.Frame
import proofs.«113435_j14370960572455_1_alg».proof.Proof.Gen.ReferenceIdeal
import proofs.«113435_j14370960572455_1_alg».proof.Proof.Gen.ReferenceIdeal.Run
import proofs.«113435_j14370960572455_1_alg».proof.Proof.Gen.ReferenceIdeal.Read
import proofs.«113435_j14370960572455_1_alg».proof.Proof.Gen.Pre_finite_inputs
import proofs.«113435_j14370960572455_1_alg».proof.Proof.Arrays
import proofs.«113435_j14370960572455_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it runs, and its run keeps the arguments. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the scores and the features of every pair, flattened over the pairs: the kernel's
    arrays by `Arrays.run`, the reference's stages by `RefValue.score_eq` and `RefValue.feats_eq`, of arguments that agree. -/
theorem algebraic : Cert.algebraic_KernelIdeal_ReferenceIdeal := by
  intro m ρ m' ρ' _ hagree
  refine ⟨fun c => shapeCast Cert.KernelIdeal.S131072 (Cert.KernelIdeal.Arrays.scoresOf m c) Cert.KernelIdeal.Facts₀.shapeCasts_S512x256_S131072,
    fun c => shapeCast Cert.KernelIdeal.S131072x64 (Cert.KernelIdeal.Arrays.featsOf m c) Cert.KernelIdeal.Facts₀.shapeCasts_S512x256x64_S131072x64,
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [a0, a1, a2, a3, a4, a5, a6, a7]
    exact (Cert.ReferenceIdeal.Read.val_main_v29_eq _ _ _ _ _ _ _ _).trans
      (Cert.ReferenceIdeal.RefValue.score_eq _ _ _ _ _ _ _ _ Cert.KernelIdeal.Facts₀.shapeCasts_S512x256_S131072)
  · rw [a0, a1, a2, a3, a4, a5]
    exact congrArg (fun X => shapeCast Cert.KernelIdeal.S131072x64 X Cert.KernelIdeal.Facts₀.shapeCasts_S512x256x64_S131072x64)
      (Cert.ReferenceIdeal.RefValue.feats_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
